-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x2048 : Shape := ⟨3, ![2048, 16, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S2048x16x2048 : S_.BroadcastsInDim S2048x16x2048 (![] : Fin 0 → Fin S2048x16x2048.rank)
  reducesTo_S2048x16x2048_S_d0_1_2 : S2048x16x2048.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part2 {F : FTy → Type} [FloatOps F] (main_arg7 : FVec F S1 .f32) (main_arg8 : FVec F S_ .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S_ .f32 := Host.absf main_arg8
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  main_v42

def fn_part1 {F : FTy → Type} [FloatOps F] (main_arg4 : FVec F S2048x1024 .f32) (main_arg5 : FVec F S1024 .f32) (main_arg6 : FVec F S1024x1 .f32) (main_arg7 : FVec F S1 .f32) (main_arg8 : FVec F S_ .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_arg8 main_v33

def fn {F : FTy → Type} [FloatOps F] (main_arg0 : FVec F S2048x16x2048 .f32) (main_arg1 : FVec F S2048x16x2048 .f32) (main_arg2 : FVec F S2048x1024 .f32) (main_arg3 : FVec F S1024 .f32) (main_arg4 : FVec F S2048x1024 .f32) (main_arg5 : FVec F S1024 .f32) (main_arg6 : FVec F S1024x1 .f32) (main_arg7 : FVec F S1 .f32) (main_arg8 : FVec F S_ .f32) : IVec S_ 1 :=
  let main_v0 : FVec F S2048x16x2048 .f32 := Host.absf main_arg0
  let main_cst : FVec F S_ .f32 := constant S_ .f32 0x7F800000#32
  let main_v1 : FVec F S2048x16x2048 .f32 := broadcastInDim S2048x16x2048 ![] bcast_S_S2048x16x2048 main_cst
  let main_v2 : IVec S2048x16x2048 1 := cmpf .olt main_v0 main_v1
  let main_c : IVec S_ 1 := constantI S_ 1 1#1
  let main_v3 : IVec S_ 1 := (fun x v => Host.reduce IntOp.andi x v reducesTo_S2048x16x2048_S_d0_1_2 h_S_) main_v2 main_c
  let main_v4 : FVec F S2048x16x2048 .f32 := Host.absf main_arg1
  let main_cst_0 : FVec F S_ .f32 := constant S_ .f32 0x7F800000#32
  let main_v5 : FVec F S2048x16x2048 .f32 := broadcastInDim S2048x16x2048 ![] bcast_S_S2048x16x2048 main_cst_0
  let main_v6 : IVec S2048x16x2048 1 := cmpf .olt main_v4 main_v5
  let main_c_1 : IVec S_ 1 := constantI S_ 1 1#1
  let main_v7 : IVec S_ 1 := (fun x v => Host.reduce IntOp.andi x v reducesTo_S2048x16x2048_S_d0_1_2 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S2048x16x2048 : Shape := ⟨3, ![2048, 16, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S1x1024 : Shape := ⟨2, ![1, 1024]⟩
abbrev S1x1 : Shape := ⟨2, ![1, 1]⟩
abbrev S2048x16x1 : Shape := ⟨3, ![2048, 16, 1]⟩
abbrev S32x16x2048 : Shape := ⟨3, ![32, 16, 2048]⟩
abbrev S32x16x1 : Shape := ⟨3, ![32, 16, 1]⟩
abbrev S512x2048 : Shape := ⟨2, ![512, 2048]⟩
abbrev S512x1024 : Shape := ⟨2, ![512, 1024]⟩
abbrev S512x1 : Shape := ⟨2, ![512, 1]⟩
abbrev S16x1 : Shape := ⟨2, ![16, 1]⟩
abbrev S1x16x1 : Shape := ⟨3, ![1, 16, 1]⟩

abbrev nBuf : Space → Nat
  | .hbm => 34
  | .vmem => 11
  | .smem => 0
  | _ => 0

abbrev bufTy : (tb : Table) → Fin (tcTables nBuf tb) → BufTy
  | .hbm, ⟨0, _⟩ => ⟨S2048x16x2048, .f32⟩
  | .hbm, ⟨1, _⟩ => ⟨S2048x16x2048, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S2048x1024, .bf16⟩
  | .hbm, ⟨15, _⟩ => ⟨S2048x1024, .bf16⟩
  | .hbm, ⟨16, _⟩ => ⟨S1024x1, .bf16⟩
  | .hbm, ⟨17, _⟩ => ⟨S1x1024, .f32⟩
  | .hbm, ⟨18, _⟩ => ⟨S1x1, .f32⟩
  | .hbm, ⟨19, _⟩ => ⟨S2048x16x1, .f32⟩
  | .hbm, ⟨20, _⟩ => ⟨S_, .f32⟩
  | .hbm, ⟨21, _⟩ => ⟨S16x1, .f32⟩
  | .hbm, ⟨22, _⟩ => ⟨S_, .f32⟩
  | .hbm, ⟨23, _⟩ => ⟨S16x1, .f32⟩
  | .hbm, ⟨24, _⟩ => ⟨S16x1, .f32⟩
  | .hbm, ⟨25, _⟩ => ⟨S1x16x1, .f32⟩
  | .hbm, ⟨26, _⟩ => ⟨S2048x16x1, .f32⟩
  | .hbm, ⟨27, _⟩ => ⟨S2048x16x1, .f32⟩
  | .hbm, ⟨28, _⟩ => ⟨S2048x16x1, .f32⟩
  | .hbm, ⟨29, _⟩ => ⟨S_, .f32⟩
  | .hbm, ⟨30, _⟩ => ⟨S16x1, .f32⟩
  | .hbm, ⟨31, _⟩ => ⟨S1x16x1, .f32⟩
  | .hbm, ⟨32, _⟩ => ⟨S2048x16x1, .f32⟩
  | .hbm, ⟨33, _⟩ => ⟨S2048x16x1, .f32⟩
  | .local _ .vmem, ⟨0, _⟩ => ⟨S32x16x2048, .f32⟩
  | .local _ .vmem, ⟨1, _⟩ => ⟨S32x16x2048, .f32⟩
  | .local _ .vmem, ⟨2, _⟩ => ⟨S32x16x2048, .f32⟩
  | .local _ .vmem, ⟨3, _⟩ => ⟨S32x16x2048, .f32⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1024x1, .bf16⟩
  | .local _ .vmem, ⟨8, _⟩ => ⟨S1x1, .f32⟩
  | .local _ .vmem, ⟨9, _⟩ => ⟨S32x16x1, .f32⟩
  | .local _ .vmem, ⟨10, _⟩ => ⟨S32x16x1, .f32⟩
  | _, _ => ⟨S2048x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1024 : S_.BroadcastsInDim S1024 (![] : Fin 0 → Fin S1024.rank)
  bitsLt_bf16_f32 : FTy.bits .bf16 < FTy.bits .f32
  shapeCasts_S1024_S1x1024 : S1024.ShapeCasts S1x1024
  shapeCasts_S1_S1x1 : S1.ShapeCasts S1x1
  inb_S32x16x2048_S32x16x2048_0_0_0 : ∀ a, (![0, 0, 0] : Fin 3 → Nat) a + S32x16x2048.size a ≤ S32x16x2048.size a
  h_S32x16x2048 : 0 < S32x16x2048.numel
  shapeCasts_S32x16x2048_S512x2048 : S32x16x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S32x16x1 : S512x1.ShapeCasts S32x16x1
  inb_S32x16x1_S32x16x1_0_0_0 : ∀ a, (![0, 0, 0] : Fin 3 → Nat) a + S32x16x1.size a ≤ S32x16x1.size a
  h_S32x16x1 : 0 < S32x16x1.numel
  reducesTo_S2048x16x1_S16x1_d0 : S2048x16x1.ReducesTo [0] S16x1
  h_S_ : 0 < S_.numel
  bcast_S_S16x1 : S_.BroadcastsInDim S16x1 (![] : Fin 0 → Fin S16x1.rank)
  bcast_S16x1_S1x16x1_1_2 : S16x1.BroadcastsInDim S1x16x1 (![1, 2] : Fin 2 → Fin S1x16x1.rank)
  bcast_S1x16x1_S2048x16x1_0_1_2 : S1x16x1.BroadcastsInDim S2048x16x1 (![0, 1, 2] : Fin 3 → Fin S2048x16x1.rank)
  dot_S512x2048_S2048x1024_S512x1024_1_0_0_1_n_n_wf : DotDims.WF S512x2048 S2048x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x2048.size a ≤ S2048x16x2048.size a
  hwx0_0 : ∀ i : grid0.Coords, EltTy.bits .f32 = 32 ∨ (Rect.block (s := S2048x16x2048) S32x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16x2048.size a ≤ S2048x16x2048.size a
  hwx0_1 : ∀ i : grid0.Coords, EltTy.bits .f32 = 32 ∨ (Rect.block (s := S2048x16x2048) S32x16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .bf16 = 32 ∨ (Rect.block (s := S1024x1) S1024x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x16x1.size a ≤ S2048x16x1.size a
  hwx0_7 : ∀ i : grid0.Coords, EltTy.bits .f32 = 32 ∨ (Rect.block (s := S2048x16x1) S32x16x1.size (cc0_transform_7 i) (hinb0_7 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_arg0) S32x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S32x16x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x16x2048 : Shape := ⟨3, ![2048, 16, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S2048x16x1024 : Shape := ⟨3, ![2048, 16, 1024]⟩
abbrev S1x1x1024 : Shape := ⟨3, ![1, 1, 1024]⟩
abbrev S2048x16x1 : Shape := ⟨3, ![2048, 16, 1]⟩
abbrev S1x1x1 : Shape := ⟨3, ![1, 1, 1]⟩
abbrev S16x1 : Shape := ⟨2, ![16, 1]⟩
abbrev S1x16x1 : Shape := ⟨3, ![1, 16, 1]⟩

abbrev nBuf : Space → Nat
  | .hbm => 41
  | .vmem => 0
  | .smem => 0
  | _ => 0

abbrev bufTy : (tb : Table) → Fin (tcTables nBuf tb) → BufTy
  | .hbm, ⟨0, _⟩ => ⟨S2048x16x2048, .f32⟩
  | .hbm, ⟨1, _⟩ => ⟨S2048x16x2048, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S_, .f32⟩
  | .hbm, ⟨9, _⟩ => ⟨S2048x16x1024, .f32⟩
  | .hbm, ⟨10, _⟩ => ⟨S1x1x1024, .f32⟩
  | .hbm, ⟨11, _⟩ => ⟨S2048x16x1024, .f32⟩
  | .hbm, ⟨12, _⟩ => ⟨S2048x16x1024, .f32⟩
  | .hbm, ⟨13, _⟩ => ⟨S2048x16x1024, .f32⟩
  | .hbm, ⟨14, _⟩ => ⟨S2048x16x1024, .f32⟩
  | .hbm, ⟨15, _⟩ => ⟨S1x1x1024, .f32⟩
  | .hbm, ⟨16, _⟩ => ⟨S2048x16x1024, .f32⟩
  | .hbm, ⟨17, _⟩ => ⟨S2048x16x1024, .f32⟩
  | .hbm, ⟨18, _⟩ => ⟨S_, .f32⟩
  | .hbm, ⟨19, _⟩ => ⟨S_, .f32⟩
  | .hbm, ⟨20, _⟩ => ⟨S2048x16x1024, .f32⟩
  | .hbm, ⟨21, _⟩ => ⟨S2048x16x1024, .f32⟩
  | .hbm, ⟨22, _⟩ => ⟨S2048x16x1024, .f32⟩
  | .hbm, ⟨23, _⟩ => ⟨S2048x16x1, .f32⟩
  | .hbm, ⟨24, _⟩ => ⟨S1x1x1, .f32⟩
  | .hbm, ⟨25, _⟩ => ⟨S2048x16x1, .f32⟩
  | .hbm, ⟨26, _⟩ => ⟨S2048x16x1, .f32⟩
  | .hbm, ⟨27, _⟩ => ⟨S_, .f32⟩
  | .hbm, ⟨28, _⟩ => ⟨S16x1, .f32⟩
  | .hbm, ⟨29, _⟩ => ⟨S_, .f32⟩
  | .hbm, ⟨30, _⟩ => ⟨S16x1, .f32⟩
  | .hbm, ⟨31, _⟩ => ⟨S16x1, .f32⟩
  | .hbm, ⟨32, _⟩ => ⟨S1x16x1, .f32⟩
  | .hbm, ⟨33, _⟩ => ⟨S2048x16x1, .f32⟩
  | .hbm, ⟨34, _⟩ => ⟨S2048x16x1, .f32⟩
  | .hbm, ⟨35, _⟩ => ⟨S2048x16x1, .f32⟩
  | .hbm, ⟨36, _⟩ => ⟨S_, .f32⟩
  | .hbm, ⟨37, _⟩ => ⟨S16x1, .f32⟩
  | .hbm, ⟨38, _⟩ => ⟨S1x16x1, .f32⟩
  | .hbm, ⟨39, _⟩ => ⟨S2048x16x1, .f32⟩
  | .hbm, ⟨40, _⟩ => ⟨S2048x16x1, .f32⟩
  | _, _ => ⟨S2048x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2048x16x1024_0_1_2 : S1x1x1024.BroadcastsInDim S2048x16x1024 (![0, 1, 2] : Fin 3 → Fin S2048x16x1024.rank)
  bcast_S_S2048x16x1024 : S_.BroadcastsInDim S2048x16x1024 (![] : Fin 0 → Fin S2048x16x1024.rank)
  bcast_S1_S1x1x1_2 : S1.BroadcastsInDim S1x1x1 (![2] : Fin 1 → Fin S1x1x1.rank)
  bcast_S1x1x1_S2048x16x1_0_1_2 : S1x1x1.BroadcastsInDim S2048x16x1 (![0, 1, 2] : Fin 3 → Fin S2048x16x1.rank)
  reducesTo_S2048x16x1_S16x1_d0 : S2048x16x1.ReducesTo [0] S16x1
  h_S_ : 0 < S_.numel
  bcast_S_S16x1 : S_.BroadcastsInDim S16x1 (![] : Fin 0 → Fin S16x1.rank)
  bcast_S16x1_S1x16x1_1_2 : S16x1.BroadcastsInDim S1x16x1 (![1, 2] : Fin 2 → Fin S1x16x1.rank)
  bcast_S1x16x1_S2048x16x1_0_1_2 : S1x16x1.BroadcastsInDim S2048x16x1 (![0, 1, 2] : Fin 3 → Fin S2048x16x1.rank)
  dot_S2048x16x2048_S2048x1024_S2048x16x1024_2_0_01_1_n_n_wf : DotDims.WF S2048x16x2048 S2048x1024 S2048x16x1024 [2] [0] [0, 1] [1] [] []
  dot_S2048x16x1024_S1024x1_S2048x16x1_2_0_01_1_n_n_wf : DotDims.WF S2048x16x1024 S1024x1 S2048x16x1 [2] [0] [0, 1] [1] [] []

variable [Facts₀]

def dot_S2048x16x2048_S2048x1024_S2048x16x1024_2_0_01_1_n_n : DotDims S2048x16x2048 S2048x1024 S2048x16x1024 where
  lhsContracting := [2]
  rhsContracting := [0]
  lhsNonContracting := [0, 1]
  rhsNonContracting := [1]
  lhsBatch := []
  rhsBatch := []
  wf := dot_S2048x16x2048_S2048x1024_S2048x16x1024_2_0_01_1_n_n_wf
def dot_S2048x16x1024_S1024x1_S2048x16x1_2_0_01_1_n_n : DotDims S2048x16x1024 S1024x1 S2048x16x1 where
  lhsContracting := [2]
  rhsContracting := [0]
  lhsNonContracting := [0, 1]
  rhsNonContracting := [1]
  lhsBatch := []
  rhsBatch := []
  wf := dot_S2048x16x1024_S1024x1_S2048x16x1_2_0_01_1_n_n_wf

class Facts : Prop extends Facts₀ where

variable [Facts]
-- ==== Proof.Spec.lean ====
/-
  The specification of additive attention over the sequence axis, on the extended reals.

  For a sequence position s, a batch row b and a feature v the pre-activation is
      pre[s,b,v] = (Σ_h hidden[s,b,h]·Ww[h,v] + Σ_h z[s,b,h]·Wz[h,v]) + ((bw[v] + bz[v]) + w_a·½),
  the score is
      u[s,b] = Σ_v tanh(pre[s,b,v])·Vw[v,0] + vb[0],
  and the result is the softmax of u along s: exp(u − max_s u) divided by its sum over s.
  The softmax is one function of the score array; both programs apply it, so it is kept closed here.
  The only law needed between the two programs is that + on the extended reals is associative and
  commutative, which holds at the infinities too: no finiteness of the inputs is used.
-/
import proofs.«106161_j3642132267704_1_alg».proof.Proof.Gen.KernelIdeal
import Idealize.ShloMosaic.Lib.ValueIdx
import Idealize.ShloMosaic.PureOps.Ideal.Laws

noncomputable section

namespace Cert.Attention

open Idealize.ShloMosaic Idealize.ShloMosaic.ValueIdx Cert.KernelIdeal Cert.KernelIdeal.Facts₀

/-- The pre-activation at (s, b, v): the two projections' sums over the hidden axis, plus the two biases and
    the scalar term w_a·½. -/
def preAct (hid z : FVec Ideal S2048x16x2048 .f32) (Ww Wz : FVec Ideal S2048x1024 .f32) (bw bz : FVec Ideal S1024 .f32)
    (wa : FVec Ideal S_ .f32) (s : Fin 2048) (b : Fin 16) (v : Fin 1024) : EReal :=
  ((∑ h : Fin 2048, hid (ix3 s b h) * Ww (ix2 h v)) + (∑ h : Fin 2048, z (ix3 s b h) * Wz (ix2 h v)))
    + ((bw (ix1 v) + bz (ix1 v)) + wa ix0 * Ideal.ofBits .f32 0x3F000000#32)

/-- The score at (s, b): tanh of the pre-activation, contracted with the column Vw over the feature axis, plus vb. -/
def scoreAt (hid z : FVec Ideal S2048x16x2048 .f32) (Ww Wz : FVec Ideal S2048x1024 .f32) (bw bz : FVec Ideal S1024 .f32)
    (Vw : FVec Ideal S1024x1 .f32) (vb : FVec Ideal S1 .f32) (wa : FVec Ideal S_ .f32) (s : Fin 2048) (b : Fin 16) : EReal :=
  (∑ v : Fin 1024, Ideal.tanh (preAct hid z Ww Wz bw bz wa s b v) * Vw (ix2 v 0)) + vb (ix1 0)

/-- The score array [2048, 16, 1]. -/
def score (hid z : FVec Ideal S2048x16x2048 .f32) (Ww Wz : FVec Ideal S2048x1024 .f32) (bw bz : FVec Ideal S1024 .f32)
    (Vw : FVec Ideal S1024x1 .f32) (vb : FVec Ideal S1 .f32) (wa : FVec Ideal S_ .f32) : FVec Ideal S2048x16x1 .f32 :=
  fun i => scoreAt hid z Ww Wz bw bz Vw vb wa (i 0) (i 1)

/-- The softmax along the sequence axis of a [2048, 16, 1] array: exp (u − max_s u) over its sum along s, the maximum
    taken from −∞ and the sum from 0. -/
def softmaxSeq (u : FVec Ideal S2048x16x1 .f32) : FVec Ideal S2048x16x1 .f32 :=
  Host.divf (F := Ideal)
    (Host.exp (F := Ideal) (subf u (broadcastInDim S2048x16x1 ![0, 1, 2] bcast_S1x16x1_S2048x16x1_0_1_2 (broadcastInDim S1x16x1 ![1, 2] bcast_S16x1_S1x16x1_1_2
      (maximumf (broadcastInDim S16x1 ![] bcast_S_S16x1 (constant (F := Ideal) S_ .f32 0xFF800000#32))
        (Host.reduce FloatOps.maximumf u (constant (F := Ideal) S_ .f32 0xFF800000#32) reducesTo_S2048x16x1_S16x1_d0 h_S_))))))
    (broadcastInDim S2048x16x1 ![0, 1, 2] bcast_S1x16x1_S2048x16x1_0_1_2 (broadcastInDim S1x16x1 ![1, 2] bcast_S16x1_S1x16x1_1_2
      (Host.reduceAdd (F := Ideal)
        (Host.exp (F := Ideal) (subf u (broadcastInDim S2048x16x1 ![0, 1, 2] bcast_S1x16x1_S2048x16x1_0_1_2 (broadcastInDim S1x16x1 ![1, 2] bcast_S16x1_S1x16x1_1_2
          (maximumf (broadcastInDim S16x1 ![] bcast_S_S16x1 (constant (F := Ideal) S_ .f32 0xFF800000#32))
            (Host.reduce FloatOps.maximumf u (constant (F := Ideal) S_ .f32 0xFF800000#32) reducesTo_S2048x16x1_S16x1_d0 h_S_))))))
        (constant (F := Ideal) S_ .f32 0x00000000#32) reducesTo_S2048x16x1_S16x1_d0 h_S_)))

/-- Regrouping a sum of five extended reals: adding the biases one at a time between the two projections is adding
    their sum after both. Associativity and commutativity only. -/
theorem add_regroup (A B p q r : EReal) : (((A + p) + B) + q) + r = (A + B) + ((p + q) + r) := by
  rw [add_assoc (A + p + B) q r, add_assoc (A + p) B (q + r), add_assoc A p (B + (q + r)), add_assoc A B (p + q + r),
    add_assoc p q r, add_left_comm p B (q + r)]

end Cert.Attention

end
-- ==== Proof.Body.lean ====
/-
  The kernel body's stored value at an index, on the extended reals.

  A grid point handles 32 sequence positions. Its [32,16,2048] blocks of hidden and z are viewed as [512,2048]
  matrices whose row p·16+q is position p, batch row q; the two products with the [2048,1024] weights are summed,
  the [1,1024] bias row is added to every row, tanh is taken, the product with the [1024,1] column Vw gives a
  [512,1] column, vb's one entry is added, and the column is viewed back as [32,16,1]. Changes of float format
  are the identity here, and a product into the zero accumulator is the plain sum over the contracted axis. So at
  (p, q, 0) the stored value is
      Σ_v tanh((Σ_h x0[p,q,h]·x2[h,v] + Σ_h x1[p,q,h]·x3[h,v]) + x4[0,v]) · x5[v,0] + x6[0,0].
-/
import proofs.«106161_j3642132267704_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Attention.Body

open Idealize.ShloMosaic Idealize.ShloMosaic.ValueIdx Cert.KernelIdeal

/-- The row of the [512, ·] view that holds position p, batch row q. -/
abbrev row (p : Fin 32) (q : Fin 16) : Fin 512 := ⟨p.val * 16 + q.val, by have := p.isLt; have := q.isLt; omega⟩

/-! ## The two views -/

/-- A [32,16,2048] block viewed [512,2048]: row p·16+q, column h is entry (p, q, h). -/
theorem view_rows (x : FVec Ideal S32x16x2048 .f32) (hc : S32x16x2048.ShapeCasts S512x2048) (p : Fin 32) (q : Fin 16) (h : Fin 2048) :
    shapeCast S512x2048 x hc (ix2 (row p q) h) = x (ix3 p q h) :=
  shapeCast_apply x _ _ _ (by
    rw [Shape.rowMajor_val_three, Shape.rowMajor_val_two]
    show (p.val * 16 + q.val) * 2048 + h.val = (p.val * 16 + q.val) * 2048 + h.val
    rfl)

/-- A [512,1] column viewed [32,16,1]: entry (p, q, 0) is row p·16+q. -/
theorem view_back (y : FVec Ideal S512x1 .f32) (hc : S512x1.ShapeCasts S32x16x1) (p : Fin 32) (q : Fin 16) (o : Fin 1) :
    shapeCast S32x16x1 y hc (ix3 p q o) = y (ix2 (row p q) 0) :=
  shapeCast_apply y _ _ _ (by
    rw [Shape.rowMajor_val_three, Shape.rowMajor_val_two]
    show (p.val * 16 + q.val) * 1 + (0 : Fin 1).val = (p.val * 16 + q.val) * 1 + o.val
    have := o.isLt
    show (p.val * 16 + q.val) * 1 + 0 = (p.val * 16 + q.val) * 1 + o.val
    omega)

/-! ## The two matrix products as sums -/

theorem lhs_proj_0 (i : S512x1024.Idx) (k : dot_S512x2048_S2048x1024_S512x1024_1_0_0_1_n_n.contr.Idx) :
    (dot_S512x2048_S2048x1024_S512x1024_1_0_0_1_n_n.lhsIdx i k 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_proj_1 (i : S512x1024.Idx) (k : dot_S512x2048_S2048x1024_S512x1024_1_0_0_1_n_n.contr.Idx) :
    (dot_S512x2048_S2048x1024_S512x1024_1_0_0_1_n_n.lhsIdx i k 1).val = (k ⟨0, by decide⟩).val :=
  dot_S512x2048_S2048x1024_S512x1024_1_0_0_1_n_n.lhsIdx_val_of_single rfl i k
theorem rhs_proj_0 (i : S512x1024.Idx) (k : dot_S512x2048_S2048x1024_S512x1024_1_0_0_1_n_n.contr.Idx) :
    (dot_S512x2048_S2048x1024_S512x1024_1_0_0_1_n_n.rhsIdx i k 0).val = (k ⟨0, by decide⟩).val :=
  dot_S512x2048_S2048x1024_S512x1024_1_0_0_1_n_n.rhsIdx_val_of_single rfl i k
theorem rhs_proj_1 (i : S512x1024.Idx) (k : dot_S512x2048_S2048x1024_S512x1024_1_0_0_1_n_n.contr.Idx) :
    (dot_S512x2048_S2048x1024_S512x1024_1_0_0_1_n_n.rhsIdx i k 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- A [512,2048]·[2048,1024] product into the zero accumulator, at (r, v): the sum over the hidden axis. -/
theorem proj_apply (l : FVec Ideal S512x2048 .bf16) (w : FVec Ideal S2048x1024 .bf16) (r : Fin 512) (v : Fin 1024) :
    matmul dot_S512x2048_S2048x1024_S512x1024_1_0_0_1_n_n none l w (constant (F := Ideal) S512x1024 .f32 0x00000000#32) (ix2 r v)
      = ∑ h : Fin 2048, l (ix2 r h) * w (ix2 h v) := by
  show FloatOps.matmul dot_S512x2048_S2048x1024_S512x1024_1_0_0_1_n_n none l w (constant (F := Ideal) S512x1024 .f32 0x00000000#32) (ix2 r v) = _
  rw [Ideal.matmul_constant_zero_apply, ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 r v) ((ValueIdx.contrEquiv1 dot_S512x2048_S2048x1024_S512x1024_1_0_0_1_n_n 2048 rfl rfl).symm k) = ix2 r k := funext fun a => Fin.ext (by
    match a with
    | ⟨0, _⟩ => exact lhs_proj_0 _ _
    | ⟨1, _⟩ => exact (lhs_proj_1 _ _).trans hk)
  have er : dot_S512x2048_S2048x1024_S512x1024_1_0_0_1_n_n.rhsIdx (ix2 r v) ((ValueIdx.contrEquiv1 dot_S512x2048_S2048x1024_S512x1024_1_0_0_1_n_n 2048 rfl rfl).symm k) = ix2 k v := funext fun a => Fin.ext (by
    match a with
    | ⟨0, _⟩ => exact (rhs_proj_0 _ _).trans hk
    | ⟨1, _⟩ => exact rhs_proj_1 _ _)
  rw [el, er]

theorem lhs_col_0 (i : S512x1.Idx) (k : dot_S512x1024_S1024x1_S512x1_1_0_0_1_n_n.contr.Idx) :
    (dot_S512x1024_S1024x1_S512x1_1_0_0_1_n_n.lhsIdx i k 0).val = (i 0).val := by
  unfold DotDims.lhsIdx
  rw [dif_neg (show ¬(0 : Fin S512x1024.rank) ∈ dot_S512x1024_S1024x1_S512x1_1_0_0_1_n_n.lhsBatch by decide), dif_pos (show (0 : Fin S512x1024.rank) ∈ dot_S512x1024_S1024x1_S512x1_1_0_0_1_n_n.lhsNonContracting by decide)]
  rfl
theorem lhs_col_1 (i : S512x1.Idx) (k : dot_S512x1024_S1024x1_S512x1_1_0_0_1_n_n.contr.Idx) :
    (dot_S512x1024_S1024x1_S512x1_1_0_0_1_n_n.lhsIdx i k 1).val = (k ⟨0, by decide⟩).val :=
  dot_S512x1024_S1024x1_S512x1_1_0_0_1_n_n.lhsIdx_val_of_single rfl i k
theorem rhs_col_0 (i : S512x1.Idx) (k : dot_S512x1024_S1024x1_S512x1_1_0_0_1_n_n.contr.Idx) :
    (dot_S512x1024_S1024x1_S512x1_1_0_0_1_n_n.rhsIdx i k 0).val = (k ⟨0, by decide⟩).val :=
  dot_S512x1024_S1024x1_S512x1_1_0_0_1_n_n.rhsIdx_val_of_single rfl i k
theorem rhs_col_1 (i : S512x1.Idx) (k : dot_S512x1024_S1024x1_S512x1_1_0_0_1_n_n.contr.Idx) :
    (dot_S512x1024_S1024x1_S512x1_1_0_0_1_n_n.rhsIdx i k 1).val = (i 1).val := by
  unfold DotDims.rhsIdx
  rw [dif_neg (show ¬(1 : Fin S1024x1.rank) ∈ dot_S512x1024_S1024x1_S512x1_1_0_0_1_n_n.rhsBatch by decide), dif_pos (show (1 : Fin S1024x1.rank) ∈ dot_S512x1024_S1024x1_S512x1_1_0_0_1_n_n.rhsNonContracting by decide)]
  rfl

/-- A [512,1024]·[1024,1] product into the zero accumulator, at (r, 0): the sum over the feature axis. -/
theorem col_apply (l : FVec Ideal S512x1024 .bf16) (w : FVec Ideal S1024x1 .bf16) (r : Fin 512) :
    matmul dot_S512x1024_S1024x1_S512x1_1_0_0_1_n_n none l w (constant (F := Ideal) S512x1 .f32 0x00000000#32) (ix2 r 0)
      = ∑ v : Fin 1024, l (ix2 r v) * w (ix2 v 0) := by
  show FloatOps.matmul dot_S512x1024_S1024x1_S512x1_1_0_0_1_n_n none l w (constant (F := Ideal) S512x1 .f32 0x00000000#32) (ix2 r 0) = _
  rw [Ideal.matmul_constant_zero_apply, ← Equiv.sum_comp (ValueIdx.contrEquiv1 dot_S512x1024_S1024x1_S512x1_1_0_0_1_n_n 1024 rfl rfl).symm]
  refine Finset.sum_congr rfl fun k _ => ?_
  have hk := ValueIdx.contrEquiv1_symm_val dot_S512x1024_S1024x1_S512x1_1_0_0_1_n_n 1024 rfl rfl k
  have el : dot_S512x1024_S1024x1_S512x1_1_0_0_1_n_n.lhsIdx (ix2 r 0) ((ValueIdx.contrEquiv1 dot_S512x1024_S1024x1_S512x1_1_0_0_1_n_n 1024 rfl rfl).symm k) = ix2 r k := funext fun a => Fin.ext (by
    match a with
    | ⟨0, _⟩ => exact lhs_col_0 _ _
    | ⟨1, _⟩ => exact (lhs_col_1 _ _).trans hk)
  have er : dot_S512x1024_S1024x1_S512x1_1_0_0_1_n_n.rhsIdx (ix2 r 0) ((ValueIdx.contrEquiv1 dot_S512x1024_S1024x1_S512x1_1_0_0_1_n_n 1024 rfl rfl).symm k) = ix2 k 0 := funext fun a => Fin.ext (by
    match a with
    | ⟨0, _⟩ => exact (rhs_col_0 _ _).trans hk
    | ⟨1, _⟩ => exact rhs_col_1 _ _)
  rw [el, er]

/-! ## The two broadcasts -/

/-- The [1,1024] bias row broadcast over the 512 rows reads its column. -/
theorem bias_row (b : FVec Ideal S1x1024 .f32) (hb : S1x1024.Broadcasts S512x1024) (r : Fin 512) (v : Fin 1024) :
    broadcastTo S512x1024 b hb (ix2 r v) = b (ix2 0 v) :=
  broadcastTo_apply b _ _ _ (fun a => by
    match a with
    | ⟨0, _⟩ => show (0 : Nat) = if (1 : Nat) = 1 then 0 else _; rw [if_pos rfl]
    | ⟨1, _⟩ => show v.val = if (1024 : Nat) = 1 then 0 else v.val; rw [if_neg (by decide)])

/-- The [1,1] entry broadcast over the 512 rows of the column. -/
theorem bias_one (b : FVec Ideal S1x1 .f32) (hb : S1x1.Broadcasts S512x1) (r : Fin 512) :
    broadcastTo S512x1 b hb (ix2 r 0) = b (ix2 0 0) :=
  broadcastTo_apply b _ _ _ (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-! ## The stored value -/

/-- tanh of a vector, at an index. -/
theorem tanh_at {s : Shape} {φ : FTy} (x : FVec Ideal s φ) (i : s.Idx) : tanh x i = Ideal.tanh (x i) := rfl

/-- The body's stored value at (p, q, 0). -/
theorem stored_at (x0 x1 : FVec Ideal S32x16x2048 .f32) (x2 x3 : FVec Ideal S2048x1024 .bf16) (x4 : FVec Ideal S1x1024 .f32)
    (x5 : FVec Ideal S1024x1 .bf16) (x6 : FVec Ideal S1x1 .f32) (p : Fin 32) (q : Fin 16) (o : Fin 1) :
    Gen.k0_pay1 (F := Ideal) x0 x1 x2 x3 x4 x5 x6 (ix3 p q o)
      = (∑ v : Fin 1024, Ideal.tanh (((∑ h : Fin 2048, x0 (ix3 p q h) * x2 (ix2 h v)) + (∑ h : Fin 2048, x1 (ix3 p q h) * x3 (ix2 h v))) + x4 (ix2 0 v)) * x5 (ix2 v 0))
        + x6 (ix2 0 0) := by
  unfold Gen.k0_pay1
  simp only [shapeCast_self]
  rw [view_back, addf_apply, col_apply, bias_one]
  refine congrArg (· + x6 (ix2 0 0)) (Finset.sum_congr rfl fun v _ => ?_)
  rw [truncf_apply, tanh_at, addf_apply, addf_apply, proj_apply, proj_apply, bias_row]
  simp only [truncf_apply, view_rows]

end Cert.Attention.Body

end
-- ==== Proof.KernelScore.lean ====
/-
  The kernel's score array, and its result.

  Point t of the 64-point grid handles sequence positions 32t … 32t+31: it is handed rows 32t … 32t+31 of hidden
  and of z, and the whole of the two weights, the bias row, the column Vw and vb's entry; it writes rows
  32t … 32t+31 of the [2048,16,1] score array. The weights and the column reach it through a change of float
  format, which is the identity on the extended reals; the bias row is (bw + bz) + w_a·½ viewed [1,1024], and vb
  viewed [1,1]. So what point t writes back is block t of the specification's score array, the 64 blocks cover
  the array, and the array after the region is the score array. The operations after the region are the softmax
  along the sequence axis, applied to it.
-/
import proofs.«106161_j3642132267704_1_alg».proof.Proof.Spec
import proofs.«106161_j3642132267704_1_alg».proof.Proof.Body
import proofs.«106161_j3642132267704_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.Attention.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The arguments, the arrays the region is handed, and a point's blocks, each at its literal type -/

abbrev aHid (c : Dev nD) : FVec Ideal S2048x16x2048 .f32 := m ((c : Thread nD τ).loc main_arg0)
abbrev aZ (c : Dev nD) : FVec Ideal S2048x16x2048 .f32 := m ((c : Thread nD τ).loc main_arg1)
abbrev aWw (c : Dev nD) : FVec Ideal S2048x1024 .f32 := m ((c : Thread nD τ).loc main_arg2)
abbrev aBw (c : Dev nD) : FVec Ideal S1024 .f32 := m ((c : Thread nD τ).loc main_arg3)
abbrev aWz (c : Dev nD) : FVec Ideal S2048x1024 .f32 := m ((c : Thread nD τ).loc main_arg4)
abbrev aBz (c : Dev nD) : FVec Ideal S1024 .f32 := m ((c : Thread nD τ).loc main_arg5)
abbrev aVw (c : Dev nD) : FVec Ideal S1024x1 .f32 := m ((c : Thread nD τ).loc main_arg6)
abbrev aVb (c : Dev nD) : FVec Ideal S1 .f32 := m ((c : Thread nD τ).loc main_arg7)
abbrev aWa (c : Dev nD) : FVec Ideal S_ .f32 := m ((c : Thread nD τ).loc main_arg8)

abbrev rWw (c : Dev nD) : FVec Ideal S2048x1024 .bf16 := V m c main_v4
abbrev rWz (c : Dev nD) : FVec Ideal S2048x1024 .bf16 := V m c main_v5
abbrev rVw (c : Dev nD) : FVec Ideal S1024x1 .bf16 := V m c main_v6
abbrev rBias (c : Dev nD) : FVec Ideal S1x1024 .f32 := V m c main_v7
abbrev rVb (c : Dev nD) : FVec Ideal S1x1 .f32 := V m c main_v8

abbrev bHid (c : Dev nD) (t : Fin cfg0.N) : FVec Ideal S32x16x2048 .f32 := iblk m c 0 t
abbrev bZ (c : Dev nD) (t : Fin cfg0.N) : FVec Ideal S32x16x2048 .f32 := iblk m c 1 t
abbrev bWw (c : Dev nD) (t : Fin cfg0.N) : FVec Ideal S2048x1024 .bf16 := iblk m c 2 t
abbrev bWz (c : Dev nD) (t : Fin cfg0.N) : FVec Ideal S2048x1024 .bf16 := iblk m c 3 t
abbrev bBias (c : Dev nD) (t : Fin cfg0.N) : FVec Ideal S1x1024 .f32 := iblk m c 4 t
abbrev bVw (c : Dev nD) (t : Fin cfg0.N) : FVec Ideal S1024x1 .bf16 := iblk m c 5 t
abbrev bVb (c : Dev nD) (t : Fin cfg0.N) : FVec Ideal S1x1 .f32 := iblk m c 6 t

/-! ## The arrays the region is handed, from the arguments -/

/-- The third operand is Ww: its change of format is the identity. -/
theorem arr_Ww (c : Dev nD) (i : S2048x1024.Idx) : rWw m c i = aWw m c i := by
  have e : rWw m c = truncf .bf16 (aWw m c) Facts₀.bitsLt_bf16_f32 := by
    show StableHlo.after hostOps0 (fun b => m (c, b)) (Proc.devRef .tc main_v4) = _
    after_results
  rw [e]; rfl

/-- The fourth is Wz. -/
theorem arr_Wz (c : Dev nD) (i : S2048x1024.Idx) : rWz m c i = aWz m c i := by
  have e : rWz m c = truncf .bf16 (aWz m c) Facts₀.bitsLt_bf16_f32 := by
    show StableHlo.after hostOps0 (fun b => m (c, b)) (Proc.devRef .tc main_v5) = _
    after_results
  rw [e]; rfl

/-- The sixth is the column Vw. -/
theorem arr_Vw (c : Dev nD) (i : S1024x1.Idx) : rVw m c i = aVw m c i := by
  have e : rVw m c = truncf .bf16 (aVw m c) Facts₀.bitsLt_bf16_f32 := by
    show StableHlo.after hostOps0 (fun b => m (c, b)) (Proc.devRef .tc main_v6) = _
    after_results
  rw [e]; rfl

/-- The fifth is the bias row: at column v it is (bw[v] + bz[v]) + w_a·½. -/
theorem arr_bias (c : Dev nD) (v : Fin 1024) :
    rBias m c (ix2 0 v) = (aBw m c (ix1 v) + aBz m c (ix1 v)) + aWa m c ix0 * Ideal.ofBits .f32 0x3F000000#32 := by
  have e : rBias m c
      = shapeCast S1x1024 (addf (addf (aBw m c) (aBz m c))
          (broadcastInDim S1024 ![] Facts₀.bcast_S_S1024 (mulf (aWa m c) (constant (F := Ideal) S_ .f32 0x3F000000#32))))
          Facts₀.shapeCasts_S1024_S1x1024 := by
    show StableHlo.after hostOps0 (fun b => m (c, b)) (Proc.devRef .tc main_v7) = _
    after_results; rfl
  rw [e, shapeCast_apply _ _ _ (ix1 v) (by rw [Shape.rowMajor_val_one, Shape.rowMajor_val_two]; show v.val = 0 * 1024 + v.val; omega),
    addf_apply, addf_apply, broadcastInDim_apply _ _ _ _ ix0 (fun a => a.elim0), mulf_apply, constant_apply]

/-- The seventh is vb's one entry. -/
theorem arr_vb (c : Dev nD) : rVb m c (ix2 0 0) = aVb m c (ix1 0) := by
  have e : rVb m c = shapeCast S1x1 (aVb m c) Facts₀.shapeCasts_S1_S1x1 := by
    show StableHlo.after hostOps0 (fun b => m (c, b)) (Proc.devRef .tc main_v8) = _
    after_results; rfl
  rw [e, shapeCast_apply _ _ _ (ix1 0) (by rw [Shape.rowMajor_val_one, Shape.rowMajor_val_two]; rfl)]

/-! ## The specification at the arguments -/

/-- The score array of the arguments as launched. -/
abbrev scoreOf (c : Dev nD) : FVec Ideal S2048x16x1 .f32 :=
  Cert.Attention.score (aHid m c) (aZ m c) (aWw m c) (aWz m c) (aBw m c) (aBz m c) (aVw m c) (aVb m c) (aWa m c)

/-- It reads the score at its index's position and batch row. -/
theorem scoreOf_apply (c : Dev nD) (i : S2048x16x1.Idx) :
    scoreOf m c i = Cert.Attention.scoreAt (aHid m c) (aZ m c) (aWw m c) (aWz m c) (aBw m c) (aBz m c) (aVw m c) (aVb m c) (aWa m c) (i 0) (i 1) := rfl

/-! ## The blocks -/

/-- The printed index maps over the grid: the three moving windows are at block t of the sequence axis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The sequence position of row p of point t's blocks. -/
abbrev pos (t : Fin cfg0.N) (p : Fin 32) : Fin 2048 :=
  ⟨t.val * 32 + p.val, by have h : t.val < 64 := t.isLt; have := p.isLt; omega⟩

/-- Point t's block of hidden. -/
theorem blk_hidden (c : Dev nD) (t : Fin cfg0.N) (p : Fin 32) (q : Fin 16) (h : Fin 2048) :
    bHid m c t (ix3 p q h) = aHid m c (ix3 (pos t p) q h) := by
  obtain ⟨e0, e1, e2, -⟩ := idx_facts t
  show iblk m c 0 t (ix3 p q h) = _
  unfold iblk
  rw [View.read_apply, V_main_arg0]
  refine congrArg (aHid m c) (funext fun a => Fin.ext ?_)
  match a with
  | ⟨0, _⟩ => show win0_0.index t (0 : Fin 3) * 32 + 1 * p.val = t.val * 32 + p.val; rw [e0]; omega
  | ⟨1, _⟩ => show win0_0.index t (1 : Fin 3) * 16 + 1 * q.val = q.val; rw [e1]; omega
  | ⟨2, _⟩ => show win0_0.index t (2 : Fin 3) * 2048 + 1 * h.val = h.val; rw [e2]; omega

/-- Point t's block of z. -/
theorem blk_z (c : Dev nD) (t : Fin cfg0.N) (p : Fin 32) (q : Fin 16) (h : Fin 2048) :
    bZ m c t (ix3 p q h) = aZ m c (ix3 (pos t p) q h) := by
  obtain ⟨-, -, -, e0, e1, e2, -⟩ := idx_facts t
  show iblk m c 1 t (ix3 p q h) = _
  unfold iblk
  rw [View.read_apply, V_main_arg1]
  refine congrArg (aZ m c) (funext fun a => Fin.ext ?_)
  match a with
  | ⟨0, _⟩ => show win0_1.index t (0 : Fin 3) * 32 + 1 * p.val = t.val * 32 + p.val; rw [e0]; omega
  | ⟨1, _⟩ => show win0_1.index t (1 : Fin 3) * 16 + 1 * q.val = q.val; rw [e1]; omega
  | ⟨2, _⟩ => show win0_1.index t (2 : Fin 3) * 2048 + 1 * h.val = h.val; rw [e2]; omega

/-- A window whose one block is its whole array hands the body the array: the weights, -/
theorem blk_Ww (c : Dev nD) (t : Fin cfg0.N) (i : S2048x1024.Idx) : bWw m c t i = rWw m c i := by
  show iblk m c 2 t i = _
  unfold iblk
  rw [View.read_apply]
  refine congrArg (rWw m c) (funext fun a => Fin.ext ?_)
  match a with
  | ⟨0, _⟩ => show 0 * 2048 + 1 * (i 0).val = (i 0).val; omega
  | ⟨1, _⟩ => show 0 * 1024 + 1 * (i 1).val = (i 1).val; omega
theorem blk_Wz (c : Dev nD) (t : Fin cfg0.N) (i : S2048x1024.Idx) : bWz m c t i = rWz m c i := by
  show iblk m c 3 t i = _
  unfold iblk
  rw [View.read_apply]
  refine congrArg (rWz m c) (funext fun a => Fin.ext ?_)
  match a with
  | ⟨0, _⟩ => show 0 * 2048 + 1 * (i 0).val = (i 0).val; omega
  | ⟨1, _⟩ => show 0 * 1024 + 1 * (i 1).val = (i 1).val; omega
/-- the bias row, -/
theorem blk_bias (c : Dev nD) (t : Fin cfg0.N) (i : S1x1024.Idx) : bBias m c t i = rBias m c i := by
  show iblk m c 4 t i = _
  unfold iblk
  rw [View.read_apply]
  refine congrArg (rBias m c) (funext fun a => Fin.ext ?_)
  match a with
  | ⟨0, _⟩ => show 0 * 1 + 1 * (i 0).val = (i 0).val; omega
  | ⟨1, _⟩ => show 0 * 1024 + 1 * (i 1).val = (i 1).val; omega
/-- the column, -/
theorem blk_Vw (c : Dev nD) (t : Fin cfg0.N) (i : S1024x1.Idx) : bVw m c t i = rVw m c i := by
  show iblk m c 5 t i = _
  unfold iblk
  rw [View.read_apply]
  refine congrArg (rVw m c) (funext fun a => Fin.ext ?_)
  match a with
  | ⟨0, _⟩ => show 0 * 1024 + 1 * (i 0).val = (i 0).val; omega
  | ⟨1, _⟩ => show 0 * 1 + 1 * (i 1).val = (i 1).val; omega
/-- and vb's entry. -/
theorem blk_vb (c : Dev nD) (t : Fin cfg0.N) (i : S1x1.Idx) : bVb m c t i = rVb m c i := by
  show iblk m c 6 t i = _
  unfold iblk
  rw [View.read_apply]
  refine congrArg (rVb m c) (funext fun a => Fin.ext ?_)
  match a with
  | ⟨0, _⟩ => show 0 * 1 + 1 * (i 0).val = (i 0).val; omega
  | ⟨1, _⟩ => show 0 * 1 + 1 * (i 1).val = (i 1).val; omega

/-! ## What a point writes back -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body's stored value at point t, row p, batch row q, is the score at position 32t+p, batch row q. -/
theorem stored_score (c : Dev nD) (t : Fin cfg0.N) (p : Fin 32) (q : Fin 16) (o : Fin 1) :
    k0_pay1 (F := Ideal) (bHid m c t) (bZ m c t) (bWw m c t) (bWz m c t) (bBias m c t) (bVw m c t) (bVb m c t) (ix3 p q o)
      = Cert.Attention.scoreAt (aHid m c) (aZ m c) (aWw m c) (aWz m c) (aBw m c) (aBz m c) (aVw m c) (aVb m c) (aWa m c) (pos t p) q := by
  refine (Cert.Attention.Body.stored_at (bHid m c t) (bZ m c t) (bWw m c t) (bWz m c t) (bBias m c t) (bVw m c t) (bVb m c t) p q o).trans ?_
  unfold Cert.Attention.scoreAt Cert.Attention.preAct
  rw [blk_vb, arr_vb]
  refine congrArg (· + aVb m c (ix1 0)) (Finset.sum_congr rfl fun v _ => ?_)
  have hw : ∀ h : Fin 2048, bHid m c t (ix3 p q h) * bWw m c t (ix2 h v) = aHid m c (ix3 (pos t p) q h) * aWw m c (ix2 h v) :=
    fun h => by rw [blk_hidden, blk_Ww, arr_Ww]
  have hz : ∀ h : Fin 2048, bZ m c t (ix3 p q h) * bWz m c t (ix2 h v) = aZ m c (ix3 (pos t p) q h) * aWz m c (ix2 h v) :=
    fun h => by rw [blk_z, blk_Wz, arr_Wz]
  rw [Finset.sum_congr rfl (fun h _ => hw h), Finset.sum_congr rfl (fun h _ => hz h), blk_bias, arr_bias, blk_Vw, arr_Vw]

/-- The same at any index of the block, the position read through the output window's block at point t. -/
theorem stored_block (c : Dev nD) (t : Fin cfg0.N) (j : S32x16x1.Idx) :
    k0_pay1 (F := Ideal) (bHid m c t) (bZ m c t) (bWw m c t) (bWz m c t) (bBias m c t) (bVw m c t) (bVb m c t) j
      = scoreOf m c (((cfg0.win 7).blk t).view.emb j) := by
  obtain ⟨p, q, o, rfl⟩ : ∃ (p : Fin 32) (q : Fin 16) (o : Fin 1), j = ix3 p q o := ⟨j 0, j 1, j 2, eq_ix3 j⟩
  obtain ⟨-, -, -, -, -, -, e0, e1, e2⟩ := idx_facts t
  refine ((stored_score m c t p q o).trans ?_).trans (scoreOf_apply m c _).symm
  refine congrArg₂ (Cert.Attention.scoreAt (aHid m c) (aZ m c) (aWw m c) (aWz m c) (aBw m c) (aBz m c) (aVw m c) (aVb m c) (aWa m c))
    (Fin.ext ?_) (Fin.ext ?_)
  · show t.val * 32 + p.val = win0_7.index t (0 : Fin 3) * 32 + 1 * p.val
    rw [e0]; omega
  · show q.val = win0_7.index t (1 : Fin 3) * 16 + 1 * q.val
    rw [e1]; omega

/-- WHAT POINT t WRITES BACK is block t of the score array. -/
theorem flushed_eq (c : Dev nD) (t : Fin cfg0.N) :
    (dats m 0 c).flushed 7 t = ((cfg0.win 7).blk t).view.read (Elt Ideal) (scoreOf m c) := by
  show (cfg0.win 7).cut (grid0.coords t) ((dats m 0 c).after 7 t) = _
  rw [after0_7]
  unfold out0_7
  rw [View.canon_unit_zero zeros3]
  simp only [View.ld_unit_zero (S := S32x16x2048) zeros3, View.ld_unit_zero (S := S2048x1024) zeros2, View.ld_unit_zero (S := S1x1024) zeros2,
    View.ld_unit_zero (S := S1024x1) zeros2, View.ld_unit_zero (S := S1x1) zeros2]
  funext j
  exact stored_block m c t j

/-! ## The array after the region -/

/-- An index of the score array is in point t's block iff its position is among 32t … 32t+31. -/
theorem mem_blk (t : Fin cfg0.N) (i : S2048x16x1.Idx) :
    i ∈ ((cfg0.win 7).blk t).view.set ↔ ∀ a : Fin 3, win0_7.index t a * S32x16x1.size a ≤ (i a).val ∧ (i a).val < win0_7.index t a * S32x16x1.size a + S32x16x1.size a := by
  show i ∈ ((View.whole main_v9).slice (win0_7.rect t)).set ↔ _
  rw [View.set_slice_whole, Rect.mem_set_unit]
  exact Iff.rfl

/-- Every index of the score array is in the block of the point its position falls in. -/
theorem cover (i : S2048x16x1.Idx) : ∃ t : Fin cfg0.N, (cfg0.win 7).flush t = true ∧ i ∈ ((cfg0.win 7).blk t).view.set := by
  have h0 : (i 0).val < 2048 := (i 0).isLt
  have h1 : (i 1).val < 16 := (i 1).isLt
  have h2 : (i 2).val < 1 := (i 2).isLt
  let t : Fin cfg0.N := ⟨(i 0).val / 32, by show (i 0).val / 32 < 64; omega⟩
  obtain ⟨-, -, -, -, -, -, e0, e1, e2⟩ := idx_facts t
  have ht : t.val = (i 0).val / 32 := rfl
  refine ⟨t, flush0_7 t, ?_⟩
  rw [mem_blk]
  intro a
  match a with
  | ⟨0, _⟩ => show win0_7.index t (0 : Fin 3) * 32 ≤ (i 0).val ∧ (i 0).val < win0_7.index t (0 : Fin 3) * 32 + 32; rw [e0, ht]; omega
  | ⟨1, _⟩ => show win0_7.index t (1 : Fin 3) * 16 ≤ (i 1).val ∧ (i 1).val < win0_7.index t (1 : Fin 3) * 16 + 16; rw [e1]; omega
  | ⟨2, _⟩ => show win0_7.index t (2 : Fin 3) * 1 ≤ (i 2).val ∧ (i 2).val < win0_7.index t (2 : Fin 3) * 1 + 1; rw [e2]; omega

/-- THE SCORE ARRAY after the region is the specification's. -/
theorem final (c : Dev nD) : (dats m 0 c).arrAt 7 cfg0.N = scoreOf m c :=
  (dats m 0 c).arrAt_eq_of_cover 7 (scoreOf m c) (fun t _ => flushed_eq m c t) cover

/-! ## The result: the softmax of the score array -/

/-- What the operations after the region leave in the result buffer. -/
theorem result_eq (c : Dev nD) :
    Pipeline.afterTail₀ cfgs (dats m) 0 (V0 m) [hostOps1] c main_v20 = Cert.Attention.softmaxSeq (scoreOf m c) := by
  unfold Pipeline.afterTail₀
  show StableHlo.after hostOps1 _ (Proc.devRef .tc main_v20) = _
  after_results
  rw [(Pipeline.withArrays_arr spec0 launch0.win.arr_inj c _ _ 7).trans (final m c)]
  rfl

/-- THE RUN: every weakly fair execution of the kernel's program ends with the result at the softmax of the score
    array of the arguments, and the arguments as launched. -/
theorem run : θ_run defs (onTc (τ := τ) (main (F := Ideal))) ⟨m, fun _ => 0, ρ⟩ fun r => ∀ c : Dev nD,
      r.2.mem ((c.tc : Thread nD τ).loc main_v20) = Cert.Attention.softmaxSeq (scoreOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨
      ((h c).2 main_v20 (Pipeline.mem_restRefs_of main_v20 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main (F := Ideal) m ρ)

end Cert.Attention.Kernel

end
-- ==== Proof.RefScore.lean ====
/-
  The reference's score array is the specification's.

  Read one operation at a time, the reference's value before its softmax is, at (s, b, 0),
      Σ_v tanh((((Σ_h hidden[s,b,h]·Ww[h,v] + bw[v]) + Σ_h z[s,b,h]·Wz[h,v]) + bz[v]) + w_a·½) · Vw[v,0] + vb[0]:
  the biases are added one at a time between the two projections. Regrouping that five-term sum gives the
  specification's pre-activation, feature by feature. Its result is the softmax of that array along s.
-/
import proofs.«106161_j3642132267704_1_alg».proof.Proof.Spec
import proofs.«106161_j3642132267704_1_alg».proof.Proof.Gen.ReferenceIdeal.Read

noncomputable section

namespace Cert.Attention.Ref

open Idealize.ShloMosaic Idealize.ShloMosaic.ValueIdx Cert.ReferenceIdeal Cert.ReferenceIdeal.Read

/-- Where the first projection reads hidden: row (s, b), column h. -/
theorem lhs_proj (i : S2048x16x1.Idx) (k : Fin 1024) (h : Fin 2048) :
    lidx_main_v0 (lidx_main_v13 i k) h = ix3 (i 0) (i 1) h :=
  funext fun a => Fin.ext (by match a with | ⟨0, _⟩ => rfl | ⟨1, _⟩ => rfl | ⟨2, _⟩ => rfl)
/-- Where it reads the weight: row h, column v. -/
theorem rhs_proj (i : S2048x16x1.Idx) (k : Fin 1024) (h : Fin 2048) :
    ridx_main_v0 (lidx_main_v13 i k) h = ix2 h k :=
  funext fun a => Fin.ext (by match a with | ⟨0, _⟩ => rfl | ⟨1, _⟩ => rfl)
/-- The second projection reads z and its weight at the same places. -/
theorem lhs_proj' (i : S2048x16x1.Idx) (k : Fin 1024) (h : Fin 2048) :
    lidx_main_v4 (lidx_main_v13 i k) h = ix3 (i 0) (i 1) h :=
  funext fun a => Fin.ext (by match a with | ⟨0, _⟩ => rfl | ⟨1, _⟩ => rfl | ⟨2, _⟩ => rfl)
theorem rhs_proj' (i : S2048x16x1.Idx) (k : Fin 1024) (h : Fin 2048) :
    ridx_main_v4 (lidx_main_v13 i k) h = ix2 h k :=
  funext fun a => Fin.ext (by match a with | ⟨0, _⟩ => rfl | ⟨1, _⟩ => rfl)
/-- A bias broadcast over (s, b) is read at its feature. -/
theorem bias_w (i : S2048x16x1.Idx) (k : Fin 1024) : idx_main_v1 (idx_main_v2 (lidx_main_v13 i k)) = ix1 k :=
  funext fun a => Fin.ext (by match a with | ⟨0, _⟩ => rfl)
theorem bias_z (i : S2048x16x1.Idx) (k : Fin 1024) : idx_main_v6 (idx_main_v7 (lidx_main_v13 i k)) = ix1 k :=
  funext fun a => Fin.ext (by match a with | ⟨0, _⟩ => rfl)
/-- The column Vw is read at row v of its one column. -/
theorem col_v (i : S2048x16x1.Idx) (k : Fin 1024) : ridx_main_v13 i k = ix2 k 0 :=
  funext fun a => Fin.ext (by
    match a with
    | ⟨0, _⟩ => rfl
    | ⟨1, _⟩ => show (i 2).val = 0; have h : (i 2).val < 1 := (i 2).isLt; omega)
/-- vb's one entry. -/
theorem bias_v (i : S2048x16x1.Idx) : idx_main_v14 (idx_main_v15 i) = ix1 0 :=
  funext fun a => Fin.ext (by match a with | ⟨0, _⟩ => rfl)

/-- The reference's array before the softmax is the score array of the specification. -/
theorem score_eq (x0 x1 : (⟨S2048x16x2048, .f32⟩ : BufTy).Contents (Elt Ideal)) (x2 : (⟨S2048x1024, .f32⟩ : BufTy).Contents (Elt Ideal))
    (x3 : (⟨S1024, .f32⟩ : BufTy).Contents (Elt Ideal)) (x4 : (⟨S2048x1024, .f32⟩ : BufTy).Contents (Elt Ideal))
    (x5 : (⟨S1024, .f32⟩ : BufTy).Contents (Elt Ideal)) (x6 : (⟨S1024x1, .f32⟩ : BufTy).Contents (Elt Ideal))
    (x7 : (⟨S1, .f32⟩ : BufTy).Contents (Elt Ideal)) (x8 : (⟨S_, .f32⟩ : BufTy).Contents (Elt Ideal)) :
    val_main_v16 (F := Ideal) x0 x1 x2 x3 x4 x5 x6 x7 x8 = Cert.Attention.score x0 x1 x2 x4 x3 x5 x6 x7 x8 := by
  funext i
  rw [val_main_v16_apply, val_main_v13_apply, val_main_v15_apply, val_main_v14_apply, bias_v]
  unfold Cert.Attention.score Cert.Attention.scoreAt
  refine congrArg (· + x7 (ix1 0)) (Finset.sum_congr rfl fun k _ => ?_)
  rw [col_v, val_main_v12_apply, val_main_v11_apply, val_main_v8_apply, val_main_v5_apply, val_main_v3_apply,
    val_main_v0_apply, val_main_v4_apply, val_main_v2_apply, val_main_v1_apply, val_main_v7_apply, val_main_v6_apply,
    val_main_v10_apply, val_main_v9_apply, val_main_cst_apply, bias_w, bias_z]
  simp only [lhs_proj, rhs_proj, lhs_proj', rhs_proj']
  refine congrArg (fun y => Ideal.tanh y * x6 (ix2 k 0)) ?_
  unfold Cert.Attention.preAct
  exact Cert.Attention.add_regroup _ _ _ _ _

/-- The reference's result is the softmax along s of its score array (the remaining operations, unopened). -/
theorem result_eq (x0 x1 : (⟨S2048x16x2048, .f32⟩ : BufTy).Contents (Elt Ideal)) (x2 : (⟨S2048x1024, .f32⟩ : BufTy).Contents (Elt Ideal))
    (x3 : (⟨S1024, .f32⟩ : BufTy).Contents (Elt Ideal)) (x4 : (⟨S2048x1024, .f32⟩ : BufTy).Contents (Elt Ideal))
    (x5 : (⟨S1024, .f32⟩ : BufTy).Contents (Elt Ideal)) (x6 : (⟨S1024x1, .f32⟩ : BufTy).Contents (Elt Ideal))
    (x7 : (⟨S1, .f32⟩ : BufTy).Contents (Elt Ideal)) (x8 : (⟨S_, .f32⟩ : BufTy).Contents (Elt Ideal)) :
    val_main_v27 (F := Ideal) x0 x1 x2 x3 x4 x5 x6 x7 x8
      = Cert.Attention.softmaxSeq (val_main_v16 (F := Ideal) x0 x1 x2 x3 x4 x5 x6 x7 x8) := by
  unfold val_main_v27 val_main_v26 val_main_v25 val_main_v24 val_main_v23 val_main_v22 val_main_v21 val_main_v20
    val_main_v19 val_main_v18 val_main_v17 val_main_cst_0 val_main_cst_1 val_main_cst_2 Cert.Attention.softmaxSeq
  rfl

end Cert.Attention.Ref

end
-- ==== Proof.lean ====
/-
  Additive attention over the sequence axis: a kernel tiled over the sequence against its whole-array reference, on the
  extended reals.

  Both programs compute, for sequence position s and batch row b,
      u[s,b] = Σ_v tanh(pre[s,b,v])·Vw[v,0] + vb[0],
  and return the softmax of u along s. They differ in how the pre-activation is grouped. The reference adds the
  biases one at a time between the two projections,
      pre = (((Σ_h hidden·Ww + bw) + Σ_h z·Wz) + bz) + w_a·½,
  while the kernel forms the bias row (bw + bz) + w_a·½ once, outside the grid, and adds it to the sum of the two
  projections inside,
      pre = (Σ_h hidden·Ww + Σ_h z·Wz) + ((bw + bz) + w_a·½).
  Addition of extended reals is associative and commutative, also at the infinities, so the two are equal for
  every input: the finiteness of the inputs is not used. The kernel's changes of float format are the identity
  here, its products into a zero accumulator are the plain sums, and its 64 grid points each write 32 sequence
  positions of u, which together are all 2048. The softmax is the same chain of operations in both programs and is
  applied to equal arrays; it is never opened.

  Spec        the pre-activation, the score array u, the softmax as one function, the regrouping law
  Body        the kernel body's stored value at an index
  KernelScore the region's arrays from the arguments, the blocks, the score array after the region, the kernel's run
  RefScore    the reference's score array and result
  The idealization rewrote no operation, so there is nothing to preserve.
-/
import proofs.«106161_j3642132267704_1_alg».proof.Defs
import proofs.«106161_j3642132267704_1_alg».proof.Proof.Gen.Kernel
import proofs.«106161_j3642132267704_1_alg».proof.Proof.Gen.Kernel.Skeleton
import proofs.«106161_j3642132267704_1_alg».proof.Proof.Gen.Kernel.Launch
import proofs.«106161_j3642132267704_1_alg».proof.Proof.Gen.Kernel.Points
import proofs.«106161_j3642132267704_1_alg».proof.Proof.Gen.Kernel.Frame
import proofs.«106161_j3642132267704_1_alg».proof.Proof.Gen.KernelIdeal
import proofs.«106161_j3642132267704_1_alg».proof.Proof.Gen.KernelIdeal.Skeleton
import proofs.«106161_j3642132267704_1_alg».proof.Proof.Gen.KernelIdeal.Launch
import proofs.«106161_j3642132267704_1_alg».proof.Proof.Gen.KernelIdeal.Points
import proofs.«106161_j3642132267704_1_alg».proof.Proof.Gen.KernelIdeal.Frame
import proofs.«106161_j3642132267704_1_alg».proof.Proof.Gen.ReferenceIdeal
import proofs.«106161_j3642132267704_1_alg».proof.Proof.Gen.ReferenceIdeal.Run
import proofs.«106161_j3642132267704_1_alg».proof.Proof.Gen.ReferenceIdeal.Read
import proofs.«106161_j3642132267704_1_alg».proof.Proof.Gen.Pre_finite_inputs
import proofs.«106161_j3642132267704_1_alg».proof.Proof.Spec
import proofs.«106161_j3642132267704_1_alg».proof.Proof.Body
import proofs.«106161_j3642132267704_1_alg».proof.Proof.KernelScore
import proofs.«106161_j3642132267704_1_alg».proof.Proof.RefScore
import Idealize.ShloMosaic.Adequacy
import Idealize.ShloMosaic.Init

noncomputable section

namespace Cert.Proof

open Idealize.ShloMosaic Idealize.SL.Sem

/-- The word-level kernel terminates, faults nowhere and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the arguments both programs end with the softmax along the sequence axis of the
    same score array: the kernel's run gives it of its own arguments, the reference's run gives it of the
    reference's, and the arguments agree. -/
theorem algebraic : Cert.algebraic_KernelIdeal_ReferenceIdeal := by
  intro m ρ m' ρ' _ hagree
  refine ⟨fun c => Cert.Attention.softmaxSeq (Cert.Attention.Kernel.scoreOf m c), Cert.Attention.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v27_eq, Cert.Attention.Ref.result_eq, Cert.Attention.Ref.score_eq,
    h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
